-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S64 : Shape := ⟨1, ![64]⟩
abbrev S64x2048x768 : Shape := ⟨3, ![64, 2048, 768]⟩
abbrev S64x768x2048 : Shape := ⟨3, ![64, 768, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S64x2048x768 : S_.BroadcastsInDim S64x2048x768 (![] : Fin 0 → Fin S64x2048x768.rank)
  reducesTo_S64x2048x768_S_d0_1_2 : S64x2048x768.ReducesTo [0, 1, 2] S_
  bcast_S_S64x768x2048 : S_.BroadcastsInDim S64x768x2048 (![] : Fin 0 → Fin S64x768x2048.rank)
  reducesTo_S64x768x2048_S_d0_1_2 : S64x768x2048.ReducesTo [0, 1, 2] S_

variable [Facts]

def fn_part1 {F : FTy → Type} [FloatOps F] (main_v13 : IVec S_ 1) (main_v16 : IVec S64x768x2048 1) : IVec S_ 1 :=
  let main_c_5 : IVec S_ 1 := constantI S_ 1 1#1
  let main_v17 : IVec S_ 1 := (fun x v => Host.reduce IntOp.andi x v reducesTo_S64x768x2048_S_d0_1_2 h_S_) main_v16 main_c_5
  let main_v18 : IVec S_ 1 := andi main_v13 main_v17
  main_v18

def fn {F : FTy → Type} [FloatOps F] (main_arg0 : FVec F S4096x2048 .f32) (main_arg1 : IVec S64 32) (main_arg2 : FVec F S64x2048x768 .f32) (main_arg3 : FVec F S64x2048x768 .f32) (main_arg4 : FVec F S64x768x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S64x2048x768 .f32 := Host.absf main_arg2
  let main_cst_0 : FVec F S_ .f32 := constant S_ .f32 0x7F800000#32
  let main_v5 : FVec F S64x2048x768 .f32 := broadcastInDim S64x2048x768 ![] bcast_S_S64x2048x768 main_cst_0
  let main_v6 : IVec S64x2048x768 1 := cmpf .olt main_v4 main_v5
  let main_c_1 : IVec S_ 1 := constantI S_ 1 1#1
  let main_v7 : IVec S_ 1 := (fun x v => Host.reduce IntOp.andi x v reducesTo_S64x2048x768_S_d0_1_2 h_S_) main_v6 main_c_1
  let main_v8 : IVec S_ 1 := andi main_v3 main_v7
  let main_v9 : FVec F S64x2048x768 .f32 := Host.absf main_arg3
  let main_cst_2 : FVec F S_ .f32 := constant S_ .f32 0x7F800000#32
  let main_v10 : FVec F S64x2048x768 .f32 := broadcastInDim S64x2048x768 ![] bcast_S_S64x2048x768 main_cst_2
  let main_v11 : IVec S64x2048x768 1 := cmpf .olt main_v9 main_v10
  let main_c_3 : IVec S_ 1 := constantI S_ 1 1#1
  let main_v12 : IVec S_ 1 := (fun x v => Host.reduce IntOp.andi x v reducesTo_S64x2048x768_S_d0_1_2 h_S_) main_v11 main_c_3
  let main_v13 : IVec S_ 1 := andi main_v8 main_v12
  let main_v14 : FVec F S64x768x2048 .f32 := Host.absf main_arg4
  let main_cst_4 : FVec F S_ .f32 := constant S_ .f32 0x7F800000#32
  let main_v15 : FVec F S64x768x2048 .f32 := broadcastInDim S64x768x2048 ![] bcast_S_S64x768x2048 main_cst_4
  let main_v16 : IVec S64x768x2048 1 := cmpf .olt main_v14 main_v15
  fn_part1 (F := F) main_v13 main_v16
-- ==== Kernel.lean ====
abbrev S4096x2048 : Shape := ⟨2, ![4096, 2048]⟩
abbrev S64 : Shape := ⟨1, ![64]⟩
abbrev S64x2048x768 : Shape := ⟨3, ![64, 2048, 768]⟩
abbrev S64x768x2048 : Shape := ⟨3, ![64, 768, 2048]⟩
abbrev S64x64x2048 : Shape := ⟨3, ![64, 64, 2048]⟩
abbrev S1x64x2048 : Shape := ⟨3, ![1, 64, 2048]⟩
abbrev S1x2048x384 : Shape := ⟨3, ![1, 2048, 384]⟩
abbrev S1x384x2048 : Shape := ⟨3, ![1, 384, 2048]⟩
abbrev S64x2048 : Shape := ⟨2, ![64, 2048]⟩
abbrev S2048x384 : Shape := ⟨2, ![2048, 384]⟩
abbrev S384x2048 : Shape := ⟨2, ![384, 2048]⟩
abbrev S64x384 : Shape := ⟨2, ![64, 384]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S64, .i32⟩
  | .hbm, ⟨2, _⟩ => ⟨S64x2048x768, .f32⟩
  | .hbm, ⟨3, _⟩ => ⟨S64x2048x768, .f32⟩
  | .hbm, ⟨4, _⟩ => ⟨S64x768x2048, .f32⟩
  | .hbm, ⟨5, _⟩ => ⟨S64x64x2048, .f32⟩
  | .hbm, ⟨6, _⟩ => ⟨S64x64x2048, .f32⟩
  | .hbm, ⟨7, _⟩ => ⟨S4096x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x2048x384, .f32⟩
  | .local _ .vmem, ⟨3, _⟩ => ⟨S1x2048x384, .f32⟩
  | .local _ .vmem, ⟨4, _⟩ => ⟨S1x2048x384, .f32⟩
  | .local _ .vmem, ⟨5, _⟩ => ⟨S1x2048x384, .f32⟩
  | .local _ .vmem, ⟨6, _⟩ => ⟨S1x384x2048, .f32⟩
  | .local _ .vmem, ⟨7, _⟩ => ⟨S1x384x2048, .f32⟩
  | .local _ .vmem, ⟨8, _⟩ => ⟨S1x64x2048, .f32⟩
  | .local _ .vmem, ⟨9, _⟩ => ⟨S1x64x2048, .f32⟩
  | .local _ .vmem, ⟨10, _⟩ => ⟨S64x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v27 : BitVec 1 := Scalar.cmpi .eq arg1 c1_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4096x2048_S64x64x2048 : S4096x2048.ShapeCasts S64x64x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  bitsLt_bf16_f32 : FTy.bits .bf16 < FTy.bits .f32
  inb_S1x2048x384_S1x2048x384_0_0_0 : ∀ a, (![0, 0, 0] : Fin 3 → Nat) a + S1x2048x384.size a ≤ S1x2048x384.size a
  h_S1x2048x384 : 0 < S1x2048x384.numel
  shapeCasts_S1x2048x384_S2048x384 : S1x2048x384.ShapeCasts S2048x384
  inb_S1x384x2048_S1x384x2048_0_0_0 : ∀ a, (![0, 0, 0] : Fin 3 → Nat) a + S1x384x2048.size a ≤ S1x384x2048.size a
  h_S1x384x2048 : 0 < S1x384x2048.numel
  shapeCasts_S1x384x2048_S384x2048 : S1x384x2048.ShapeCasts S384x2048
  shapeCasts_S64x2048_S1x64x2048 : S64x2048.ShapeCasts S1x64x2048
  shapeCasts_S64x64x2048_S4096x2048 : S64x64x2048.ShapeCasts S4096x2048
  dot_S64x2048_S2048x384_S64x384_1_0_0_1_n_n_wf : DotDims.WF S64x2048 S2048x384 S64x384 [1] [0] [0] [1] [] []
  dot_S64x384_S384x2048_S64x2048_1_0_0_1_n_n_wf : DotDims.WF S64x384 S384x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S64x64x2048.size a
  hwx0_0 : ∀ i : grid0.Coords, EltTy.bits .f32 = 32 ∨ (Rect.block (s := S64x64x2048) S1x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x384.size a ≤ S64x2048x768.size a
  hwx0_1 : ∀ i : grid0.Coords, EltTy.bits .f32 = 32 ∨ (Rect.block (s := S64x2048x768) S1x2048x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x384.size a ≤ S64x2048x768.size a
  hwx0_2 : ∀ i : grid0.Coords, EltTy.bits .f32 = 32 ∨ (Rect.block (s := S64x2048x768) S1x2048x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x384x2048.size a ≤ S64x768x2048.size a
  hwx0_3 : ∀ i : grid0.Coords, EltTy.bits .f32 = 32 ∨ (Rect.block (s := S64x768x2048) S1x384x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x2048.size a ≤ S64x64x2048.size a
  hwx0_4 : ∀ i : grid0.Coords, EltTy.bits .f32 = 32 ∨ (Rect.block (s := S64x64x2048) S1x64x2048.size (cc0_transform_4 i) (hinb0_4 i)).WholeWords (EltTy.packing .f32)

variable [Facts₀]

def dot_S64x2048_S2048x384_S64x384_1_0_0_1_n_n : DotDims S64x2048 S2048x384 S64x384 where
  lhsContracting := [1]
  rhsContracting := [0]
  lhsNonContracting := [0]
  rhsNonContracting := [1]
  lhsBatch := []
  rhsBatch := []
  wf := dot_S64x2048_S2048x384_S64x384_1_0_0_1_n_n_wf
def dot_S64x384_S384x2048_S64x2048_1_0_0_1_n_n : DotDims S64x384 S384x2048 S64x2048 where
  lhsContracting := [1]
  rhsContracting := [0]
  lhsNonContracting := [0]
  rhsNonContracting := [1]
  lhsBatch := []
  rhsBatch := []
  wf := dot_S64x384_S384x2048_S64x2048_1_0_0_1_n_n_wf

abbrev win0_0 : Pipeline.Window sig grid0 :=
  Pipeline.Window.ofSpec (Memref.whole main_v0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x2048x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x384x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x2048 : Shape := ⟨2, ![4096, 2048]⟩
abbrev S64 : Shape := ⟨1, ![64]⟩
abbrev S64x2048x768 : Shape := ⟨3, ![64, 2048, 768]⟩
abbrev S64x768x2048 : Shape := ⟨3, ![64, 768, 2048]⟩
abbrev S64x64x2048 : Shape := ⟨3, ![64, 64, 2048]⟩
abbrev S64x64x768 : Shape := ⟨3, ![64, 64, 768]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S64, .i32⟩
  | .hbm, ⟨2, _⟩ => ⟨S64x2048x768, .f32⟩
  | .hbm, ⟨3, _⟩ => ⟨S64x2048x768, .f32⟩
  | .hbm, ⟨4, _⟩ => ⟨S64x768x2048, .f32⟩
  | .hbm, ⟨5, _⟩ => ⟨S64x64x2048, .f32⟩
  | .hbm, ⟨6, _⟩ => ⟨S64x64x768, .f32⟩
  | .hbm, ⟨7, _⟩ => ⟨S64x64x768, .f32⟩
  | .hbm, ⟨8, _⟩ => ⟨S64x64x768, .f32⟩
  | .hbm, ⟨9, _⟩ => ⟨S64x64x768, .f32⟩
  | .hbm, ⟨10, _⟩ => ⟨S_, .f32⟩
  | .hbm, ⟨11, _⟩ => ⟨S64x64x768, .f32⟩
  | .hbm, ⟨12, _⟩ => ⟨S64x64x768, .f32⟩
  | .hbm, ⟨13, _⟩ => ⟨S_, .f32⟩
  | .hbm, ⟨14, _⟩ => ⟨S64x64x768, .f32⟩
  | .hbm, ⟨15, _⟩ => ⟨S64x64x768, .f32⟩
  | .hbm, ⟨16, _⟩ => ⟨S64x64x768, .f32⟩
  | .hbm, ⟨17, _⟩ => ⟨S64x64x768, .f32⟩
  | .hbm, ⟨18, _⟩ => ⟨S64x64x2048, .f32⟩
  | .hbm, ⟨19, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S4096x2048_S64x64x2048 : S4096x2048.ShapeCasts S64x64x2048
  bcast_S_S64x64x768 : S_.BroadcastsInDim S64x64x768 (![] : Fin 0 → Fin S64x64x768.rank)
  shapeCasts_S64x64x2048_S4096x2048 : S64x64x2048.ShapeCasts S4096x2048
  dot_S64x64x2048_S64x2048x768_S64x64x768_2_1_1_2_0_0_wf : DotDims.WF S64x64x2048 S64x2048x768 S64x64x768 [2] [1] [1] [2] [0] [0]
  dot_S64x64x768_S64x768x2048_S64x64x2048_2_1_1_2_0_0_wf : DotDims.WF S64x64x768 S64x768x2048 S64x64x2048 [2] [1] [1] [2] [0] [0]

variable [Facts₀]

def dot_S64x64x2048_S64x2048x768_S64x64x768_2_1_1_2_0_0 : DotDims S64x64x2048 S64x2048x768 S64x64x768 where
  lhsContracting := [2]
  rhsContracting := [1]
  lhsNonContracting := [1]
  rhsNonContracting := [2]
  lhsBatch := [0]
  rhsBatch := [0]
  wf := dot_S64x64x2048_S64x2048x768_S64x64x768_2_1_1_2_0_0_wf
def dot_S64x64x768_S64x768x2048_S64x64x2048_2_1_1_2_0_0 : DotDims S64x64x768 S64x768x2048 S64x64x2048 where
  lhsContracting := [2]
  rhsContracting := [1]
  lhsNonContracting := [1]
  rhsNonContracting := [2]
  lhsBatch := [0]
  rhsBatch := [0]
  wf := dot_S64x64x768_S64x768x2048_S64x64x2048_2_1_1_2_0_0_wf

class Facts : Prop extends Facts₀ where

variable [Facts]
-- ==== Proof.KernelPieces.lean ====
/-
  What one grid point of the kernel leaves behind, as values.

  The grid is (expert, half): point `2 e` is the first half of expert `e`'s intermediate coordinates, point `2 e + 1`
  the second. The kernel keeps a `[64, 2048]` accumulator across the two points of an expert.
  At a first-half point the accumulator is reset to zero and then updated, so it ends at `update(blocks, 0)`;
  nothing is stored into the output block. At a second-half point the accumulator, holding what the point before
  left, is updated in place and then copied into the output block (with a unit axis added in front).
  Here `update(blocks, acc)` is the body's one arithmetic term: `acc` plus the down-projection of the gated
  activations of the point's three weight blocks.
-/
import proofs.«103486_j63952063037999_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a rank-2 and of a rank-3 whole-buffer access. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A second-half point leaves the accumulator at the update of what it held. -/
theorem acc_second (c : Dev nD) (i : grid0.Coords) (a2 : Memref sig .tc .vmem S1x64x2048 .f32) (h2 : a2.IsWhole) (a3 : Memref sig .tc .vmem S1x2048x384 .f32) (h3 : a3.IsWhole) (a4 : Memref sig .tc .vmem S1x2048x384 .f32) (h4 : a4.IsWhole) (a5 : Memref sig .tc .vmem S1x384x2048 .f32) (h5 : a5.IsWhole) (a6 : Memref sig .tc .vmem S1x64x2048 .f32) (h6 : a6.IsWhole) (a7 : Memref sig .tc .vmem S64x2048 .f32) (h7 : a7.IsWhole) (hc0 : ¬cond0_0 i) (hc1 : cond0_1 i)
    (x0 : Vec F S1x64x2048 .f32) (x1 x2 : Vec F S1x2048x384 .f32) (x3 : Vec F S1x384x2048 .f32) (xs0 : Vec F S64x2048 .f32) :
    sout0_B_0 c i a2 h2 a3 h3 a4 h4 a5 h5 a6 h6 a7 h7 hc0 hc1 x0 x1 x2 x3 xs0 = k0_pay2 x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz2]
  simp only [View.readAt_eq_ld, h2.read_unread, h3.read_unread, h4.read_unread, h5.read_unread, h7.read_unread,
    View.ld_unit_zero (S := S1x64x2048) hz3, View.ld_unit_zero (S := S1x2048x384) hz3, View.ld_unit_zero (S := S1x384x2048) hz3,
    View.ld_unit_zero (S := S64x2048) hz2, View.readCov_unit_zero (S := S64x2048) _ hz2]

/-- A second-half point leaves the output block at that same update, read back from the accumulator. -/
theorem out_second (c : Dev nD) (i : grid0.Coords) (a2 : Memref sig .tc .vmem S1x64x2048 .f32) (h2 : a2.IsWhole) (a3 : Memref sig .tc .vmem S1x2048x384 .f32) (h3 : a3.IsWhole) (a4 : Memref sig .tc .vmem S1x2048x384 .f32) (h4 : a4.IsWhole) (a5 : Memref sig .tc .vmem S1x384x2048 .f32) (h5 : a5.IsWhole) (a6 : Memref sig .tc .vmem S1x64x2048 .f32) (h6 : a6.IsWhole) (a7 : Memref sig .tc .vmem S64x2048 .f32) (h7 : a7.IsWhole) (hc0 : ¬cond0_0 i) (hc1 : cond0_1 i)
    (x0 : Vec F S1x64x2048 .f32) (x1 x2 : Vec F S1x2048x384 .f32) (x3 : Vec F S1x384x2048 .f32) (xs0 : Vec F S64x2048 .f32) :
    out0_B_4 c i a2 h2 a3 h3 a4 h4 a5 h5 a6 h6 a7 h7 hc0 hc1 x0 x1 x2 x3 xs0 = k0_pay3 (k0_pay2 x0 x1 x2 x3 xs0) := by
  unfold out0_B_4
  rw [View.read_writes_eq_canon _ _ _ (cover0_B_4 c i a2 h2 a3 h3 a4 h4 a5 h5 a6 h6 a7 h7 hc0 hc1 x0 x1 x2 x3 xs0)]
  unfold kernelRun0_B
  dsimp only
  sl_unfold_words
  rw [View.canon_unit_zero hz3]
  simp only [View.readAt_eq_ld, h2.read_unread, h3.read_unread, h4.read_unread, h5.read_unread, h7.read_unread,
    View.ld_unit_zero (S := S1x64x2048) hz3, View.ld_unit_zero (S := S1x2048x384) hz3, View.ld_unit_zero (S := S1x384x2048) hz3,
    View.ld_unit_zero (S := S64x2048) hz2, View.readCov_unit_zero (S := S64x2048) _ hz2]

/-- A first-half point leaves the accumulator at the update of the zero block it has just stored. -/
theorem acc_first (c : Dev nD) (i : grid0.Coords) (a2 : Memref sig .tc .vmem S1x64x2048 .f32) (h2 : a2.IsWhole) (a3 : Memref sig .tc .vmem S1x2048x384 .f32) (h3 : a3.IsWhole) (a4 : Memref sig .tc .vmem S1x2048x384 .f32) (h4 : a4.IsWhole) (a5 : Memref sig .tc .vmem S1x384x2048 .f32) (h5 : a5.IsWhole) (a6 : Memref sig .tc .vmem S1x64x2048 .f32) (h6 : a6.IsWhole) (a7 : Memref sig .tc .vmem S64x2048 .f32) (h7 : a7.IsWhole) (hc0 : cond0_0 i) (hc1 : ¬cond0_1 i)
    (x0 : Vec F S1x64x2048 .f32) (x1 x2 : Vec F S1x2048x384 .f32) (x3 : Vec F S1x384x2048 .f32) :
    sout0_A_0 c i a2 h2 a3 h3 a4 h4 a5 h5 a6 h6 a7 h7 hc0 hc1 x0 x1 x2 x3 = k0_pay2 x0 x1 x2 x3 (k0_pay1 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S64x2048) hz2]
  simp only [View.readAt_eq_ld, h2.read_unread, h3.read_unread, h4.read_unread, h5.read_unread, h7.read_unread,
    View.ld_unit_zero (S := S1x64x2048) hz3, View.ld_unit_zero (S := S1x2048x384) hz3, View.ld_unit_zero (S := S1x384x2048) hz3,
    View.ld_unit_zero (S := S64x2048) hz2, View.readCov_unit_zero (S := S64x2048) _ hz2]

end Cert.KernelIdeal.Pieces

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.FfnSpec.lean ====
/-
  The expert feed-forward network with SwiGLU gating, as one function of the argument arrays over the extended reals.

  Tokens are sorted by expert, 64 to an expert: row `64 e + g` of `x` is token `g` of expert `e`. For that token,
    gate i = ∑ₕ x[64 e + g, h] · W_gate[e, h, i],     up i = ∑ₕ x[64 e + g, h] · W_up[e, h, i]        (i < 768)
    hidden i = gate i · σ(gate i) · up i,              σ a = 1 / (1 + exp (-a))
    out[64 e + g, h] = ∑ᵢ hidden i · W_down[e, i, h]                                                     (h < 2048)
  The sum over the 768 intermediate coordinates may be taken in two halves of 384, the first added to zero and the
  second added to that: addition of extended reals is a commutative monoid, so no finiteness is needed.
-/
import proofs.«103486_j63952063037999_1_alg».proof.Proof.LibPlainDot
import Idealize.ShloMosaic.Lib.ValueIdx
import Idealize.ShloMosaic.PureOps.Ideal
import Mathlib.Algebra.BigOperators.Fin

noncomputable section

namespace Cert.Ffn

open Idealize.ShloMosaic Idealize.ShloMosaic.ValueIdx

/-- The token matrix, the two up-projection weight stacks' type, and the down-projection weight stack's. -/
abbrev Tokens := (⟨2, ![4096, 2048]⟩ : Shape).Idx → EReal
abbrev UpW := (⟨3, ![64, 2048, 768]⟩ : Shape).Idx → EReal
abbrev DownW := (⟨3, ![64, 768, 2048]⟩ : Shape).Idx → EReal

/-- The row of `x` that holds token `g` of expert `e`. -/
def tokRow (e g : Fin 64) : Fin 4096 := ⟨64 * e.val + g.val, by have := e.isLt; have := g.isLt; omega⟩

/-- Intermediate coordinate `i` of half `k` (the halves are `[0, 384)` and `[384, 768)`). -/
def half (k : Fin 2) (i : Fin 384) : Fin 768 := ⟨384 * k.val + i.val, by have := k.isLt; have := i.isLt; omega⟩

/-- Token `g` of expert `e` against column `i` of that expert's `[2048, 768]` matrix. -/
def proj (x : Tokens) (w : UpW) (e g : Fin 64) (i : Fin 768) : EReal :=
  ∑ h : Fin 2048, x (ix2 (tokRow e g) h) * w (ix3 e h i)

/-- SwiGLU of a gate value and an up value: `a · σ(a) · b`. -/
def swiglu (a b : EReal) : EReal := a * Ideal.logistic a * b

/-- The gated hidden activation. -/
def hidden (x : Tokens) (wg wu : UpW) (e g : Fin 64) (i : Fin 768) : EReal :=
  swiglu (proj x wg e g i) (proj x wu e g i)

/-- The expert's output for its token `g`, coordinate `h`. -/
def ffn (x : Tokens) (wg wu : UpW) (wd : DownW) (e g : Fin 64) (h : Fin 2048) : EReal :=
  ∑ i : Fin 768, hidden x wg wu e g i * wd (ix3 e i h)

/-- The contribution of half `k` of the intermediate coordinates. -/
def ffnHalf (x : Tokens) (wg wu : UpW) (wd : DownW) (k : Fin 2) (e g : Fin 64) (h : Fin 2048) : EReal :=
  ∑ i : Fin 384, hidden x wg wu e g (half k i) * wd (ix3 e (half k i) h)

/-- Position `k` of the first half is coordinate `k`; position `k` of the second is coordinate `384 + k`. -/
theorem half_zero (k : Fin 384) (hk : k.val < 768) : (⟨k.val, hk⟩ : Fin 768) = half 0 k :=
  Fin.ext (by show k.val = 384 * 0 + k.val; omega)
theorem half_one (k : Fin 384) (hk : 384 + k.val < 768) : (⟨384 + k.val, hk⟩ : Fin 768) = half 1 k :=
  Fin.ext (by show 384 + k.val = 384 * 1 + k.val; omega)

/-- Zero plus the first half plus the second half is the whole sum. -/
theorem halves_eq_ffn (x : Tokens) (wg wu : UpW) (wd : DownW) (e g : Fin 64) (h : Fin 2048) :
    (0 + ffnHalf x wg wu wd 0 e g h) + ffnHalf x wg wu wd 1 e g h = ffn x wg wu wd e g h := by
  rw [zero_add]
  unfold ffn ffnHalf
  exact (Cert.PlainDot.sum_two_blocks (a := 384) (b := 384) rfl
    (fun i : Fin 768 => hidden x wg wu e g i * wd (ix3 e i h))
    (fun k : Fin 384 => hidden x wg wu e g (half 0 k) * wd (ix3 e (half 0 k) h))
    (fun k : Fin 384 => hidden x wg wu e g (half 1 k) * wd (ix3 e (half 1 k) h))
    (fun k => by rw [half_zero]) (fun k => by rw [half_one])).symm

/-- The expert a row of the result belongs to, and the token's place within the expert. -/
def expertOf (r : Fin 4096) : Fin 64 := ⟨r.val / 64, by have := r.isLt; omega⟩
def slotOf (r : Fin 4096) : Fin 64 := ⟨r.val % 64, Nat.mod_lt _ (by decide)⟩

/-- The result: row `r`, coordinate `h`. -/
def out (x : Tokens) (wg wu : UpW) (wd : DownW) : (⟨2, ![4096, 2048]⟩ : Shape).Idx → EReal :=
  fun j => ffn x wg wu wd (expertOf (j 0)) (slotOf (j 0)) (j 1)

theorem tokRow_expert_slot (r : Fin 4096) : tokRow (expertOf r) (slotOf r) = r := by
  apply Fin.ext
  show 64 * (r.val / 64) + r.val % 64 = r.val
  exact Nat.div_add_mod _ _

theorem expertOf_tokRow (e g : Fin 64) : expertOf (tokRow e g) = e := by
  apply Fin.ext
  show (64 * e.val + g.val) / 64 = e.val
  have := g.isLt
  omega

theorem slotOf_tokRow (e g : Fin 64) : slotOf (tokRow e g) = g := by
  apply Fin.ext
  show (64 * e.val + g.val) % 64 = g.val
  have := g.isLt
  omega

end Cert.Ffn

end
-- ==== Proof.Payload.lean ====
/-
  The kernel body's arithmetic, read at an index over the extended reals.

  One grid point loads the expert's token block `xb : [1, 64, 2048]`, a `[1, 2048, 384]` block of each up-projection
  matrix, `gb` and `ub`, a `[1, 384, 2048]` block `db` of the down-projection matrix, and the accumulator `acc`. It
  stores, at token `g` and output coordinate `h`,
      acc[g, h] + ∑ᵢ swiglu (∑ₖ xb[0, g, k] · gb[0, k, i]) (∑ₖ xb[0, g, k] · ub[0, k, i]) · db[0, i, h]    (i < 384, k < 2048).
  The casts to the sixteen-bit format are the identity on the extended reals, a product into the zero accumulator is a
  plain sum, and the leading unit axis of a block is dropped by reading it at `0`.
-/
import proofs.«103486_j63952063037999_1_alg».proof.Proof.Gen.KernelIdeal.Skeleton
import proofs.«103486_j63952063037999_1_alg».proof.Proof.FfnSpec
import Idealize.ShloMosaic.Lib.ValueLayout
import Idealize.ShloMosaic.Lib.Pipeline.Value

noncomputable section

open Idealize.ShloMosaic Idealize.ShloMosaic.ValueIdx

namespace Cert.KernelIdeal.Payload

open Cert.KernelIdeal Cert.KernelIdeal.Gen Cert.Ffn

/-- An up-projection of the token block against a weight block, at token `g` and intermediate position `i`. -/
theorem up_apply (xb : Vec Ideal S1x64x2048 .f32) (w : Vec Ideal S1x2048x384 .f32) (g : Fin 64) (i : Fin 384) :
    matmul (F := Ideal) dot_S64x2048_S2048x384_S64x384_1_0_0_1_n_n none
        (truncf .bf16 (shapeCast S64x2048 xb shapeCasts_S1x64x2048_S64x2048) bitsLt_bf16_f32)
        (truncf .bf16 (shapeCast S2048x384 w shapeCasts_S1x2048x384_S2048x384) bitsLt_bf16_f32)
        (constant S64x384 .f32 0x00000000#32) (ix2 g i)
      = ∑ k : Fin 2048, xb (ix3 0 g k) * w (ix3 0 k i) := by
  refine (Cert.PlainDot.matmul_zero_apply _ rfl none _ _ g i).trans ?_
  refine Finset.sum_congr rfl fun k _ => ?_
  rw [truncf_apply, truncf_apply, shapeCast_1ab_ab_apply, shapeCast_1ab_ab_apply]

/-- The accumulator update, at token `g` and output coordinate `h`. -/
theorem update_apply (xb : Vec Ideal S1x64x2048 .f32) (gb ub : Vec Ideal S1x2048x384 .f32) (db : Vec Ideal S1x384x2048 .f32)
    (acc : Vec Ideal S64x2048 .f32) (g : Fin 64) (h : Fin 2048) :
    k0_pay2 (F := Ideal) xb gb ub db acc (ix2 g h)
      = acc (ix2 g h) + ∑ i : Fin 384, swiglu (∑ k : Fin 2048, xb (ix3 0 g k) * gb (ix3 0 k i))
          (∑ k : Fin 2048, xb (ix3 0 g k) * ub (ix3 0 k i)) * db (ix3 0 i h) := by
  unfold k0_pay2
  rw [shapeCast_self]
  refine congrArg (acc (ix2 g h) + ·) ?_
  refine (Cert.PlainDot.matmul_zero_apply _ rfl none _ _ g h).trans ?_
  refine Finset.sum_congr rfl fun i _ => ?_
  have e1 := up_apply xb gb g i
  have e2 := up_apply xb ub g i
  rw [truncf_apply, truncf_apply, shapeCast_1ab_ab_apply, mulf_apply, mulf_apply]
  show (_ * Ideal.logistic _) * _ * _ = _
  rw [e1, e2]
  rfl

/-- The block the accumulator is reset to is zero everywhere. -/
theorem zero_apply (j : S64x2048.Idx) : k0_pay1 (F := Ideal) j = 0 := by
  unfold k0_pay1
  rw [shapeCast_self]
  exact Ideal.ofBits_zero_f32

/-- The copy into the output block adds a leading unit axis. -/
theorem copy_apply (v : Vec Ideal S64x2048 .f32) (u : Fin 1) (g : Fin 64) (h : Fin 2048) :
    k0_pay3 (F := Ideal) v (ix3 u g h) = v (ix2 g h) := by
  unfold k0_pay3
  exact shapeCast_ab_1ab_apply v _ u g h

end Cert.KernelIdeal.Payload

end
-- ==== Proof.KernelValue.lean ====
/-
  The kernel's run, read as values over the extended reals: its result array is the expert feed-forward network of
  the arguments (`Cert.Ffn.out`).

  The region's grid is (expert, half): point `t` works on expert `t / 2` and on half `t % 2` of the 768 intermediate
  coordinates. Its token block is rows `64 (t / 2) … 64 (t / 2) + 63` of `x` (through the reshape to `[64, 64, 2048]`
  before the region); its up-projection blocks are columns `384 (t % 2) … + 383` of the expert's gate and up matrices,
  its down-projection block the same rows of the expert's down matrix.
  Point `2 e` leaves the accumulator at `0 + (first half of the sum)`, point `2 e + 1` adds the second half and writes
  the accumulator to expert `e`'s slab of the output array; the two halves together are the whole sum over the 768
  coordinates. Every slab is written at its odd point, so the output array is the network's output as
  `[64, 64, 2048]`, and the reshape after the region lays it out as `[4096, 2048]`.
-/
import proofs.«103486_j63952063037999_1_alg».proof.Proof.KernelPieces
import proofs.«103486_j63952063037999_1_alg».proof.Proof.Payload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Ffn

variable (m : (ℓ : Loc nD τ sig) → Buf (Elt Ideal) ℓ) (ρ : Dev nD → PrngReg)

/-- The argument arrays. -/
abbrev xs (c : Dev nD) : Tokens := m ((c : Thread nD τ).loc main_arg0)
abbrev wgs (c : Dev nD) : UpW := m ((c : Thread nD τ).loc main_arg2)
abbrev wus (c : Dev nD) : UpW := m ((c : Thread nD τ).loc main_arg3)
abbrev wds (c : Dev nD) : DownW := m ((c : Thread nD τ).loc main_arg4)

/-- The grid has 128 points, point `t` being expert `t / 2`, half `t % 2`. -/
theorem N_eq : cfg0.N = 128 := N_0
def expertAt (t : Fin cfg0.N) : Fin 64 := ⟨t.val / 2, by have := lt_of_lt_of_eq t.isLt N_eq; omega⟩
def halfAt (t : Fin cfg0.N) : Fin 2 := ⟨t.val % 2, Nat.mod_lt _ (by decide)⟩

/-- The printed index maps, decided over the grid: every window's block index on the expert axis is `t / 2`; the
    up-projection blocks move along their last axis and the down-projection block along its middle axis with `t % 2`. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = 0 ∧ win0_1.index t (2 : Fin 3) = t.val % 2
    ∧ win0_2.index t (0 : Fin 3) = t.val / 2 ∧ win0_2.index t (1 : Fin 3) = 0 ∧ win0_2.index t (2 : Fin 3) = t.val % 2
    ∧ win0_3.index t (0 : Fin 3) = t.val / 2 ∧ win0_3.index t (1 : Fin 3) = t.val % 2 ∧ win0_3.index t (2 : Fin 3) = 0
    ∧ win0_4.index t (0 : Fin 3) = t.val / 2 ∧ win0_4.index t (1 : Fin 3) = 0 ∧ win0_4.index t (2 : Fin 3) = 0 :=
  (by decide +kernel : ∀ t : Fin grid0.N, _)

/-- The region finds `main_v0` at the token matrix reshaped to `[64, 64, 2048]`. -/
theorem V_v0 (c : Dev nD) : (V m c main_v0 : S64x64x2048.Idx → EReal)
    = shapeCast S64x64x2048 (xs m c) shapeCasts_S4096x2048_S64x64x2048 := by
  show StableHlo.after hostOps0 (fun b => m (c, b)) (Proc.devRef .tc main_v0) = _
  after_results
  rfl

/-- The reshaped token matrix at `(e, g, k)` is row `64 e + g`, column `k`. -/
theorem v0_apply (c : Dev nD) (e g : Fin 64) (k : Fin 2048) :
    (V m c main_v0 : S64x64x2048.Idx → EReal) (ix3 e g k) = xs m c (ix2 (tokRow e g) k) := by
  rw [V_v0]
  refine shapeCast_apply _ _ _ _ ?_
  rw [Shape.rowMajor_val_two, Shape.rowMajor_val_three]
  show (64 * e.val + g.val) * 2048 + k.val = (e.val * 64 + g.val) * 2048 + k.val
  omega

/-- The token block at point `t`. -/
theorem xblk_apply (c : Dev nD) (t : Fin cfg0.N) (u : Fin 1) (g : Fin 64) (k : Fin 2048) :
    (iblk m c 0 t : Vec Ideal S1x64x2048 .f32) (ix3 u g k) = xs m c (ix2 (tokRow (expertAt t) g) k) := by
  obtain ⟨e0, e1, e2, -⟩ := idx_facts t
  unfold iblk
  rw [View.read_apply]
  show (V m c main_v0 : S64x64x2048.Idx → EReal) (((cfg0.win 0).blk t).view.emb (ix3 u g k)) = _
  have hidx : ((cfg0.win 0).blk t).view.emb (ix3 u g k) = ix3 (expertAt t) g k := by
    funext a; apply Fin.ext
    match a with
    | ⟨0, _⟩ => show win0_0.index t (0 : Fin 3) * 1 + 1 * u.val = t.val / 2; have := u.isLt; omega
    | ⟨1, _⟩ => show win0_0.index t (1 : Fin 3) * 64 + 1 * g.val = g.val; omega
    | ⟨2, _⟩ => show win0_0.index t (2 : Fin 3) * 2048 + 1 * k.val = k.val; omega
  rw [hidx, v0_apply]

/-- The gate-matrix block at point `t`: columns of half `t % 2`. -/
theorem gblk_apply (c : Dev nD) (t : Fin cfg0.N) (u : Fin 1) (k : Fin 2048) (i : Fin 384) :
    (iblk m c 1 t : Vec Ideal S1x2048x384 .f32) (ix3 u k i) = wgs m c (ix3 (expertAt t) k (half (halfAt t) i)) := by
  obtain ⟨-, -, -, e0, e1, e2, -⟩ := idx_facts t
  unfold iblk
  rw [View.read_apply]
  show (V m c main_arg2 : S64x2048x768.Idx → EReal) (((cfg0.win 1).blk t).view.emb (ix3 u k i)) = _
  have hidx : ((cfg0.win 1).blk t).view.emb (ix3 u k i) = ix3 (expertAt t) k (half (halfAt t) i) := by
    funext a; apply Fin.ext
    match a with
    | ⟨0, _⟩ => show win0_1.index t (0 : Fin 3) * 1 + 1 * u.val = t.val / 2; have := u.isLt; omega
    | ⟨1, _⟩ => show win0_1.index t (1 : Fin 3) * 2048 + 1 * k.val = k.val; omega
    | ⟨2, _⟩ => show win0_1.index t (2 : Fin 3) * 384 + 1 * i.val = 384 * (t.val % 2) + i.val; omega
  rw [hidx, V_main_arg2]

/-- The up-matrix block at point `t`. -/
theorem ublk_apply (c : Dev nD) (t : Fin cfg0.N) (u : Fin 1) (k : Fin 2048) (i : Fin 384) :
    (iblk m c 2 t : Vec Ideal S1x2048x384 .f32) (ix3 u k i) = wus m c (ix3 (expertAt t) k (half (halfAt t) i)) := by
  obtain ⟨-, -, -, -, -, -, e0, e1, e2, -⟩ := idx_facts t
  unfold iblk
  rw [View.read_apply]
  show (V m c main_arg3 : S64x2048x768.Idx → EReal) (((cfg0.win 2).blk t).view.emb (ix3 u k i)) = _
  have hidx : ((cfg0.win 2).blk t).view.emb (ix3 u k i) = ix3 (expertAt t) k (half (halfAt t) i) := by
    funext a; apply Fin.ext
    match a with
    | ⟨0, _⟩ => show win0_2.index t (0 : Fin 3) * 1 + 1 * u.val = t.val / 2; have := u.isLt; omega
    | ⟨1, _⟩ => show win0_2.index t (1 : Fin 3) * 2048 + 1 * k.val = k.val; omega
    | ⟨2, _⟩ => show win0_2.index t (2 : Fin 3) * 384 + 1 * i.val = 384 * (t.val % 2) + i.val; omega
  rw [hidx, V_main_arg3]

/-- The down-matrix block at point `t`: rows of half `t % 2`. -/
theorem dblk_apply (c : Dev nD) (t : Fin cfg0.N) (u : Fin 1) (i : Fin 384) (h : Fin 2048) :
    (iblk m c 3 t : Vec Ideal S1x384x2048 .f32) (ix3 u i h) = wds m c (ix3 (expertAt t) (half (halfAt t) i) h) := by
  obtain ⟨-, -, -, -, -, -, -, -, -, e0, e1, e2, -⟩ := idx_facts t
  unfold iblk
  rw [View.read_apply]
  show (V m c main_arg4 : S64x768x2048.Idx → EReal) (((cfg0.win 3).blk t).view.emb (ix3 u i h)) = _
  have hidx : ((cfg0.win 3).blk t).view.emb (ix3 u i h) = ix3 (expertAt t) (half (halfAt t) i) h := by
    funext a; apply Fin.ext
    match a with
    | ⟨0, _⟩ => show win0_3.index t (0 : Fin 3) * 1 + 1 * u.val = t.val / 2; have := u.isLt; omega
    | ⟨1, _⟩ => show win0_3.index t (1 : Fin 3) * 384 + 1 * i.val = 384 * (t.val % 2) + i.val; omega
    | ⟨2, _⟩ => show win0_3.index t (2 : Fin 3) * 2048 + 1 * h.val = h.val; omega
  rw [hidx, V_main_arg4]

/-- The point before `t`. -/
abbrev prevPt (t : Fin cfg0.N) : Fin cfg0.N := ⟨t.val - 1, Nat.lt_of_le_of_lt (Nat.sub_le _ _) t.isLt⟩

/-- After a first-half point the accumulator holds the update of zero by the point's blocks. -/
theorem acc_at_first (c : Dev nD) (t : Fin cfg0.N) (h0 : t.val % 2 = 0) :
    (outsAt0 m c t.val t.isLt).2
      = k0_pay2 (iblk m c 0 t) (iblk m c 1 t) (iblk m c 2 t) (iblk m c 3 t) (k0_pay1 (F := Ideal)) := by
  have h1 : ¬t.val % 2 = 1 := by omega
  rw [outsAt0_A m c t h0 h1]
  dsimp only
  exact Pieces.acc_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h))
    (iblk m c 0 t) (iblk m c 1 t) (iblk m c 2 t) (iblk m c 3 t)

/-- After a second-half point the output block holds the update, by the point's blocks, of what the first-half point
    before it left in the accumulator. -/
theorem out_at_second (c : Dev nD) (t : Fin cfg0.N) (h1 : t.val % 2 = 1) :
    (outsAt0 m c t.val t.isLt).1
      = k0_pay3 (k0_pay2 (iblk m c 0 t) (iblk m c 1 t) (iblk m c 2 t) (iblk m c 3 t)
          (k0_pay2 (iblk m c 0 (prevPt t)) (iblk m c 1 (prevPt t)) (iblk m c 2 (prevPt t)) (iblk m c 3 (prevPt t))
            (k0_pay1 (F := Ideal)))) := by
  have h0 : ¬t.val % 2 = 0 := by omega
  rw [outsAt0_B m c t h0 h1]
  dsimp only
  refine (Pieces.out_second c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
    (iblk m c 0 t) (iblk m c 1 t) (iblk m c 2 t) (iblk m c 3 t)
    (outsAt0 m c (t.val - 1) (Nat.lt_of_le_of_lt (Nat.sub_le _ _) t.isLt)).2).trans ?_
  exact congrArg (fun a => k0_pay3 (k0_pay2 (iblk m c 0 t) (iblk m c 1 t) (iblk m c 2 t) (iblk m c 3 t) a))
    (acc_at_first m c (prevPt t) (by show (t.val - 1) % 2 = 0; omega))

theorem expertAt_prev (t : Fin cfg0.N) (h1 : t.val % 2 = 1) : expertAt (prevPt t) = expertAt t :=
  Fin.ext (by show (t.val - 1) / 2 = t.val / 2; omega)
theorem halfAt_prev (t : Fin cfg0.N) (h1 : t.val % 2 = 1) : halfAt (prevPt t) = 0 :=
  Fin.ext (by show (t.val - 1) % 2 = 0; omega)
theorem halfAt_second (t : Fin cfg0.N) (h1 : t.val % 2 = 1) : halfAt t = 1 := Fin.ext h1

/-- The output block after a second-half point, at token `g` and coordinate `h`: the expert's whole sum. -/
theorem out_block_apply (c : Dev nD) (t : Fin cfg0.N) (h1 : t.val % 2 = 1) (u : Fin 1) (g : Fin 64) (h : Fin 2048) :
    (outsAt0 m c t.val t.isLt).1 (ix3 u g h) = ffn (xs m c) (wgs m c) (wus m c) (wds m c) (expertAt t) g h := by
  rw [out_at_second m c t h1]
  refine (Payload.copy_apply _ u g h).trans ?_
  refine (Payload.update_apply (iblk m c 0 t) (iblk m c 1 t) (iblk m c 2 t) (iblk m c 3 t) _ g h).trans ?_
  refine (congrArg (· + _) (Payload.update_apply (iblk m c 0 (prevPt t)) (iblk m c 1 (prevPt t)) (iblk m c 2 (prevPt t))
    (iblk m c 3 (prevPt t)) _ g h)).trans ?_
  rw [Payload.zero_apply]
  simp only [xblk_apply, gblk_apply, ublk_apply, dblk_apply, expertAt_prev t h1, halfAt_prev t h1, halfAt_second t h1]
  exact halves_eq_ffn (xs m c) (wgs m c) (wus m c) (wds m c) (expertAt t) g h

/-- The region's output array `[64, 64, 2048]`: expert, token, coordinate. -/
def G (c : Dev nD) : Buf (Elt Ideal) ((c : Thread nD τ).loc main_v1) :=
  fun j => ffn (xs m c) (wgs m c) (wus m c) (wds m c) (j 0) (j 1) (j 2)

/-- What a second-half point writes back is its expert's slab of `G`. -/
theorem flushed_eq (c : Dev nD) (t : Fin cfg0.N) (hf : (cfg0.win 4).flush t = true) :
    (dats m 0 c).flushed 4 t = ((cfg0.win 4).blk t).view.read (Elt Ideal) (G m c) := by
  have h1 : t.val % 2 = 1 := (flush0_4 t).mp hf
  obtain ⟨-, -, -, -, -, -, -, -, -, -, -, -, e0, e1, e2⟩ := idx_facts t
  show (cfg0.win 4).cut (grid0.coords t) ((dats m 0 c).after 4 t) = _
  rw [after0_4]
  funext j
  obtain ⟨u, g, h, rfl⟩ : ∃ (u : Fin 1) (g : Fin 64) (h : Fin 2048), j = ix3 u g h := ⟨j 0, j 1, j 2, eq_ix3 j⟩
  show (outsAt0 m c t.val t.isLt).1 (ix3 u g h) = G m c (((cfg0.win 4).blk t).view.emb (ix3 u g h))
  rw [out_block_apply m c t h1]
  have hidx : ((cfg0.win 4).blk t).view.emb (ix3 u g h) = ix3 (expertAt t) g h := by
    funext a; apply Fin.ext
    match a with
    | ⟨0, _⟩ => show win0_4.index t (0 : Fin 3) * 1 + 1 * u.val = t.val / 2; have := u.isLt; omega
    | ⟨1, _⟩ => show win0_4.index t (1 : Fin 3) * 64 + 1 * g.val = g.val; omega
    | ⟨2, _⟩ => show win0_4.index t (2 : Fin 3) * 2048 + 1 * h.val = h.val; omega
  rw [hidx]
  rfl

/-- An index of the output array is in point `t`'s block iff each coordinate is in the block's range on its axis. -/
theorem mem_blk (t : Fin cfg0.N) (i : S64x64x2048.Idx) :
    i ∈ ((cfg0.win 4).blk t).view.set ↔ ∀ a : Fin 3, win0_4.index t a * S1x64x2048.size a ≤ (i a).val
      ∧ (i a).val < win0_4.index t a * S1x64x2048.size a + S1x64x2048.size a := by
  show i ∈ ((View.whole main_v1).slice (win0_4.rect t)).set ↔ _
  rw [View.set_slice_whole, Rect.mem_set_unit]
  exact Iff.rfl

/-- Expert `e`'s slab is written back at point `2 e + 1`, so every index is covered. -/
theorem cover (i : S64x64x2048.Idx) :
    ∃ t : Fin cfg0.N, (cfg0.win 4).flush t = true ∧ i ∈ ((cfg0.win 4).blk t).view.set := by
  have hi0 : (i 0).val < 64 := (i 0).isLt
  have hi1 : (i 1).val < 64 := (i 1).isLt
  have hi2 : (i 2).val < 2048 := (i 2).isLt
  have hlt : 2 * (i 0).val + 1 < cfg0.N := by rw [N_eq]; omega
  obtain ⟨-, -, -, -, -, -, -, -, -, -, -, -, e0, e1, e2⟩ := idx_facts ⟨2 * (i 0).val + 1, hlt⟩
  have e0' : win0_4.index ⟨2 * (i 0).val + 1, hlt⟩ (0 : Fin 3) = (2 * (i 0).val + 1) / 2 := e0
  refine ⟨⟨2 * (i 0).val + 1, hlt⟩, (flush0_4 _).mpr (by show (2 * (i 0).val + 1) % 2 = 1; omega), ?_⟩
  rw [mem_blk]
  intro a
  match a with
  | ⟨0, _⟩ =>
    show win0_4.index ⟨2 * (i 0).val + 1, hlt⟩ (0 : Fin 3) * 1 ≤ (i 0).val
      ∧ (i 0).val < win0_4.index ⟨2 * (i 0).val + 1, hlt⟩ (0 : Fin 3) * 1 + 1
    omega
  | ⟨1, _⟩ =>
    show win0_4.index ⟨2 * (i 0).val + 1, hlt⟩ (1 : Fin 3) * 64 ≤ (i 1).val
      ∧ (i 1).val < win0_4.index ⟨2 * (i 0).val + 1, hlt⟩ (1 : Fin 3) * 64 + 64
    omega
  | ⟨2, _⟩ =>
    show win0_4.index ⟨2 * (i 0).val + 1, hlt⟩ (2 : Fin 3) * 2048 ≤ (i 2).val
      ∧ (i 2).val < win0_4.index ⟨2 * (i 0).val + 1, hlt⟩ (2 : Fin 3) * 2048 + 2048
    omega

/-- The output array after the region. -/
theorem final (c : Dev nD) : (dats m 0 c).arrAt 4 cfg0.N = G m c :=
  (dats m 0 c).arrAt_eq_of_cover 4 (G m c) (flushed_eq m c) cover

/-- The program's result: the network's output, row `r` being expert `r / 64`, token `r % 64`. -/
def result (c : Dev nD) : Buf (Elt Ideal) ((c : Thread nD τ).loc main_v2) :=
  out (xs m c) (wgs m c) (wus m c) (wds m c)

/-- The reshape after the region reads `(r, h)` of the result at `(r / 64, r % 64, h)` of the output array. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = G m c :=
    (Pipeline.withArrays_arr spec0 launch0.win.arr_inj c _ _ 4).trans (final m c)
  rw [hw]
  show shapeCast S4096x2048 (G m c) shapeCasts_S64x64x2048_S4096x2048 = _
  funext j
  obtain ⟨r, h, rfl⟩ : ∃ (r : Fin 4096) (h : Fin 2048), j = ix2 r h := ⟨j 0, j 1, eq_ix2 j⟩
  refine (shapeCast_apply (G m c) _ (ix2 r h) (ix3 (expertOf r) (slotOf r) h) ?_).trans rfl
  show (S64x64x2048.rowMajor (ix3 (expertOf r) (slotOf r) h)).val = (S4096x2048.rowMajor (ix2 r h)).val
  rw [Shape.rowMajor_val_three, Shape.rowMajor_val_two]
  show (r.val / 64 * 64 + r.val % 64) * 2048 + h.val = r.val * 2048 + h.val
  omega

/-- The kernel's run, read: the result array at the network's output, the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.KValue

end
-- ==== Proof.RefValue.lean ====
/-
  The reference, read at an index: its result array is the expert feed-forward network of the arguments
  (`Cert.Ffn.out`).

  The reference reshapes `x` to `[64, 64, 2048]` (expert, token, feature), takes two batched products with the
  experts' gate and up matrices, gates them with `a · (1 / (1 + exp (-a)))`, which is `a · σ(a)` by the definition of
  the logistic function on the extended reals, multiplies, takes the batched product with the down matrices and
  reshapes back. Row `r` of the result is expert `r / 64`, token `r % 64`; row `64 e + g` of `x` is its input.
-/
import proofs.«103486_j63952063037999_1_alg».proof.Proof.Gen.ReferenceIdeal.Run
import proofs.«103486_j63952063037999_1_alg».proof.Proof.Gen.ReferenceIdeal.Read
import proofs.«103486_j63952063037999_1_alg».proof.Proof.FfnSpec

noncomputable section

namespace Cert.ReferenceIdeal.RefValue

open Cert.ReferenceIdeal Cert.ReferenceIdeal.Read Idealize.ShloMosaic Idealize.ShloMosaic.ValueIdx Cert.Ffn

/-- The single-precision word `0x3F800000` is the number one. -/
theorem one_word : Ideal.ofBits .f32 0x3F800000#32 = 1 := by
  simp [Ideal.ofBits, Ideal.ieee, -EReal.coe_mul]; norm_num

/-- The reshape to `[64, 64, 2048]` reads `(e, g, h)` at row `64 e + g`, column `h`. -/
theorem idx_v0 (e g : Fin 64) (h : Fin 2048) : idx_main_v0 (ix3 e g h) = ix2 (tokRow e g) h := by
  funext a
  apply Fin.ext
  have he := e.isLt
  have hg := g.isLt
  have hh := h.isLt
  match a with
  | ⟨0, _⟩ => show ((e.val * 64 + g.val) * 2048 + h.val) / 2048 = 64 * e.val + g.val; omega
  | ⟨1, _⟩ => show ((e.val * 64 + g.val) * 2048 + h.val) % 2048 = h.val; omega

/-- The reshape back to `[4096, 2048]` reads row `r`, column `h` at `(r / 64, r % 64, h)`. -/
theorem idx_v6 (r : Fin 4096) (h : Fin 2048) : idx_main_v6 (ix2 r h) = ix3 (expertOf r) (slotOf r) h := by
  funext a
  apply Fin.ext
  have hr := r.isLt
  have hh := h.isLt
  match a with
  | ⟨0, _⟩ => show (r.val * 2048 + h.val) / 131072 = r.val / 64; omega
  | ⟨1, _⟩ => show (r.val * 2048 + h.val) / 2048 % 64 = r.val % 64; omega
  | ⟨2, _⟩ => show (r.val * 2048 + h.val) % 2048 = h.val; omega

theorem lidx_v1 (e g : Fin 64) (i : Fin 768) (k : Fin 2048) : lidx_main_v1 (ix3 e g i) k = ix3 e g k :=
  funext fun a => Fin.ext (by match a with | ⟨0, _⟩ => rfl | ⟨1, _⟩ => rfl | ⟨2, _⟩ => rfl)
theorem ridx_v1 (e g : Fin 64) (i : Fin 768) (k : Fin 2048) : ridx_main_v1 (ix3 e g i) k = ix3 e k i :=
  funext fun a => Fin.ext (by match a with | ⟨0, _⟩ => rfl | ⟨1, _⟩ => rfl | ⟨2, _⟩ => rfl)
theorem lidx_v5 (e g : Fin 64) (h : Fin 2048) (k : Fin 768) : lidx_main_v5 (ix3 e g h) k = ix3 e g k :=
  funext fun a => Fin.ext (by match a with | ⟨0, _⟩ => rfl | ⟨1, _⟩ => rfl | ⟨2, _⟩ => rfl)
theorem ridx_v5 (e g : Fin 64) (h : Fin 2048) (k : Fin 768) : ridx_main_v5 (ix3 e g h) k = ix3 e k h :=
  funext fun a => Fin.ext (by match a with | ⟨0, _⟩ => rfl | ⟨1, _⟩ => rfl | ⟨2, _⟩ => rfl)

/-- A batched product of the reshaped tokens with an expert's `[2048, 768]` matrix, at `(e, g, i)`. -/
theorem v1_apply (x : Tokens) (w : UpW) (e g : Fin 64) (i : Fin 768) :
    val_main_v1 (F := Ideal) x w (ix3 e g i) = proj x w e g i := by
  rw [val_main_v1_apply]
  unfold proj
  refine Finset.sum_congr rfl fun k _ => ?_
  rw [val_main_v0_apply, lidx_v1, ridx_v1, idx_v0]

/-- The second product is the same operation on the other matrix stack. -/
theorem v2_apply (x : Tokens) (w : UpW) (e g : Fin 64) (i : Fin 768) :
    val_main_v2 (F := Ideal) x w (ix3 e g i) = proj x w e g i :=
  v1_apply x w e g i

/-- The gated product, at `(e, g, i)`. -/
theorem v4_apply (x : Tokens) (wg wu : UpW) (e g : Fin 64) (i : Fin 768) :
    val_main_v4 (F := Ideal) x wg wu (ix3 e g i) = hidden x wg wu e g i := by
  rw [val_main_v4_apply, val_main_v3_apply, val_main_v5_apply_silu, v2_apply, v1_apply]
  rfl
where
  /-- The reference's `1 / (1 + exp (-a))` is the logistic function of the gate value. -/
  val_main_v5_apply_silu : val_main_call0_v5 (F := Ideal) x wg (ix3 e g i) = Ideal.logistic (proj x wg e g i) := by
    rw [val_main_call0_v5_apply, val_main_call0_v4_apply, val_main_call0_cst_0_apply, val_main_call0_v3_apply,
      val_main_call0_v2_apply, val_main_call0_cst_apply, val_main_call0_v1_apply, val_main_call0_v0_apply, v1_apply]
    simp only [Ideal.hostDivf_def, Ideal.addf_def, Ideal.hostUnary_exp_def, Ideal.hostNegf_def, Ideal.negf_def,
      Ideal.ofBits_def, one_word]
    rfl

/-- The reference's result array is the feed-forward network of its arguments. -/
theorem result_eq (x : Tokens) (wg wu : UpW) (wd : DownW) :
    val_main_v6 (F := Ideal) x wg wu wd = out x wg wu wd := by
  funext j
  obtain ⟨r, h, rfl⟩ : ∃ (r : Fin 4096) (h : Fin 2048), j = ix2 r h := ⟨j 0, j 1, eq_ix2 j⟩
  rw [val_main_v6_apply, idx_v6, val_main_v5_apply]
  show _ = ffn x wg wu wd (expertOf r) (slotOf r) h
  unfold ffn
  refine Finset.sum_congr rfl fun k _ => ?_
  rw [lidx_v5, ridx_v5, v4_apply]

end Cert.ReferenceIdeal.RefValue

end
-- ==== Proof.lean ====
/-
  Equivalence, over the extended reals, of a grouped expert feed-forward kernel with SwiGLU gating and its reference.

  Both programs take a token matrix `x : [4096, 2048]` sorted by expert (64 tokens to each of 64 experts), per-expert
  gate and up matrices `[2048, 768]` and a down matrix `[768, 2048]`, and compute for token `g` of expert `e`
      out = (silu (x W_gate) · (x W_up)) W_down,        silu a = a · σ(a).
  The reference does it with three batched products over all 768 intermediate coordinates; the kernel visits each
  expert twice, once per half of the intermediate coordinates, and accumulates the down-projection of each half.
  At the ideal values the casts to a narrower format are the identity, the kernel's logistic function is by definition
  the reference's `1 / (1 + exp (-a))`, and a sum over 768 coordinates is the sum of its two halves added to zero,
  because addition of extended reals is a commutative monoid; so the finiteness of the inputs is not used.

  The kernel's result as a function of the arguments is in Proof/KernelValue.lean (over Proof/KernelPieces.lean and
  Proof/Payload.lean), the reference's in Proof/RefValue.lean, their common specification in Proof/FfnSpec.lean.
  The claim's conjunct relating the word-level kernel to its idealized text is stated as `True` (no rewrite of an
  operation is recorded for it), so it holds trivially.
-/
import proofs.«103486_j63952063037999_1_alg».proof.Defs
import proofs.«103486_j63952063037999_1_alg».proof.Proof.Gen.Kernel
import proofs.«103486_j63952063037999_1_alg».proof.Proof.Gen.Kernel.Skeleton
import proofs.«103486_j63952063037999_1_alg».proof.Proof.Gen.Kernel.Launch
import proofs.«103486_j63952063037999_1_alg».proof.Proof.Gen.Kernel.Points
import proofs.«103486_j63952063037999_1_alg».proof.Proof.Gen.Kernel.Frame
import proofs.«103486_j63952063037999_1_alg».proof.Proof.Gen.KernelIdeal
import proofs.«103486_j63952063037999_1_alg».proof.Proof.Gen.KernelIdeal.Skeleton
import proofs.«103486_j63952063037999_1_alg».proof.Proof.Gen.KernelIdeal.Launch
import proofs.«103486_j63952063037999_1_alg».proof.Proof.Gen.KernelIdeal.Points
import proofs.«103486_j63952063037999_1_alg».proof.Proof.Gen.KernelIdeal.Frame
import proofs.«103486_j63952063037999_1_alg».proof.Proof.Gen.ReferenceIdeal
import proofs.«103486_j63952063037999_1_alg».proof.Proof.Gen.ReferenceIdeal.Run
import proofs.«103486_j63952063037999_1_alg».proof.Proof.Gen.ReferenceIdeal.Read
import proofs.«103486_j63952063037999_1_alg».proof.Proof.Gen.Pre_finite_inputs
import proofs.«103486_j63952063037999_1_alg».proof.Proof.KernelValue
import proofs.«103486_j63952063037999_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealized text. -/
theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The conjunct is stated as `True`: no rewrite of an operation is recorded for the idealized text. -/
theorem preserves : Cert.preserves_Kernel_KernelIdeal := trivial

/-- From memories that agree on the arguments both programs end with the result array at the network's output of
    those arguments. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, (hagree c).1, (hagree c).2.2.1,
    (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
